-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8192x8 : Shape := ⟨2, ![8192, 8]⟩
abbrev S4096x512 : Shape := ⟨2, ![4096, 512]⟩
abbrev S4096 : Shape := ⟨1, ![4096]⟩
abbrev S4096x1 : Shape := ⟨2, ![4096, 1]⟩
abbrev S4096x64 : Shape := ⟨2, ![4096, 64]⟩
abbrev S64 : Shape := ⟨1, ![64]⟩
abbrev S64x4096 : Shape := ⟨2, ![64, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S4096x1 : S_.BroadcastsInDim S4096x1 (![] : Fin 0 → Fin S4096x1.rank)
  reducesTo_S4096x1_S_d0_1 : S4096x1.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg9 : FVec F S4096 .f32) (main_v33 : IVec S_ 1) : IVec S_ 1 :=
  let main_v34 : FVec F S4096 .f32 := Host.absf main_arg9
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg6 : FVec F S4096x64 .f32) (main_arg7 : FVec F S64 .f32) (main_arg8 : FVec F S64x4096 .f32) (main_arg9 : FVec F S4096 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096x64 .f32 := Host.absf main_arg6
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x4096 .f32 := Host.absf main_arg8
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg9 main_v33

def fn {F : FTy → Type} [FloatOps F] (main_arg0 : FVec F S4096x4096 .f32) (main_arg1 : FVec F S8192x8 .f32) (main_arg2 : IVec S4096x512 32) (main_arg3 : IVec S4096 32) (main_arg4 : FVec F S4096x1 .f32) (main_arg5 : FVec F S4096x1 .f32) (main_arg6 : FVec F S4096x64 .f32) (main_arg7 : FVec F S64 .f32) (main_arg8 : FVec F S64x4096 .f32) (main_arg9 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S8192x8 .f32 := Host.absf main_arg1
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  let main_v9 : FVec F S4096x1 .f32 := Host.absf main_arg4
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x1 .f32 := Host.absf main_arg5
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg6 main_arg7 main_arg8 main_arg9 main_v13 main_v16
-- ==== Kernel.lean ====
abbrev S4096x4096 : Shape := ⟨2, ![4096, 4096]⟩
abbrev S8192x8 : Shape := ⟨2, ![8192, 8]⟩
abbrev S4096x512 : Shape := ⟨2, ![4096, 512]⟩
abbrev S4096 : Shape := ⟨1, ![4096]⟩
abbrev S4096x1 : Shape := ⟨2, ![4096, 1]⟩
abbrev S4096x64 : Shape := ⟨2, ![4096, 64]⟩
abbrev S64 : Shape := ⟨1, ![64]⟩
abbrev S64x4096 : Shape := ⟨2, ![64, 4096]⟩
abbrev S_ : Shape := ⟨0, ![]⟩
abbrev S4096x512x1 : Shape := ⟨3, ![4096, 512, 1]⟩
abbrev S4096x512x8 : Shape := ⟨3, ![4096, 512, 8]⟩
abbrev S1x64 : Shape := ⟨2, ![1, 64]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 42
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S8192x8, .f32⟩
  | .hbm, ⟨2, _⟩ => ⟨S4096x512, .i32⟩
  | .hbm, ⟨3, _⟩ => ⟨S4096, .i32⟩
  | .hbm, ⟨4, _⟩ => ⟨S4096x1, .f32⟩
  | .hbm, ⟨5, _⟩ => ⟨S4096x1, .f32⟩
  | .hbm, ⟨6, _⟩ => ⟨S4096x64, .f32⟩
  | .hbm, ⟨7, _⟩ => ⟨S64, .f32⟩
  | .hbm, ⟨8, _⟩ => ⟨S64x4096, .f32⟩
  | .hbm, ⟨9, _⟩ => ⟨S4096, .f32⟩
  | .hbm, ⟨10, _⟩ => ⟨S_, .i32⟩
  | .hbm, ⟨11, _⟩ => ⟨S4096x512, .i32⟩
  | .hbm, ⟨12, _⟩ => ⟨S4096x512, .i1⟩
  | .hbm, ⟨13, _⟩ => ⟨S_, .i32⟩
  | .hbm, ⟨14, _⟩ => ⟨S4096x512, .i32⟩
  | .hbm, ⟨15, _⟩ => ⟨S4096x512, .i32⟩
  | .hbm, ⟨16, _⟩ => ⟨S4096x512, .i32⟩
  | .hbm, ⟨17, _⟩ => ⟨S4096x512x1, .i32⟩
  | .hbm, ⟨18, _⟩ => ⟨S4096x512x8, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x4096, .f32⟩
  | .hbm, ⟨33, _⟩ => ⟨S1x64, .f32⟩
  | .hbm, ⟨34, _⟩ => ⟨S4096x64, .f32⟩
  | .hbm, ⟨35, _⟩ => ⟨S4096x64, .f32⟩
  | .hbm, ⟨36, _⟩ => ⟨S4096x4096, .f32⟩
  | .hbm, ⟨37, _⟩ => ⟨S4096x4096, .f32⟩
  | .hbm, ⟨38, _⟩ => ⟨S4096x4096, .bf16⟩
  | .hbm, ⟨39, _⟩ => ⟨S4096x4096, .bf16⟩
  | .hbm, ⟨40, _⟩ => ⟨S1x4096, .f32⟩
  | .hbm, ⟨41, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  shapeCasts_S4096x512x8_S4096x4096 : S4096x512x8.ShapeCasts S4096x4096
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S8192x8_S4096x512x1_S4096x512x8_2_0_n_n_0_2_18_wf : GatherDims.WF S8192x8 S4096x512x1 S4096x512x8 [2] [0] [] [0] [] 2 ![1, 8]
  gather_S4096x4096_S4096x1_S4096x4096_0_1_n_n_1_1_40961_wf : GatherDims.WF S4096x4096 S4096x1 S4096x4096 [0] [1] [] [1] [] 1 ![4096, 1]
  dot_S4096x64_S64x4096_S4096x4096_1_0_0_1_n_n_wf : DotDims.WF S4096x64 S64x4096 S4096x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def gather_S8192x8_S4096x512x1_S4096x512x8_2_0_n_n_0_2_18 : GatherDims S8192x8 S4096x512x1 S4096x512x8 where
  offsetDims := [2]
  collapsedSliceDims := [0]
  operandBatchingDims := []
  startIndicesBatchingDims := []
  startIndexMap := [0]
  indexVectorDim := 2
  sliceSizes := ![1, 8]
  wf := gather_S8192x8_S4096x512x1_S4096x512x8_2_0_n_n_0_2_18_wf
def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v24) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S8192x8 : Shape := ⟨2, ![8192, 8]⟩
abbrev S4096x512 : Shape := ⟨2, ![4096, 512]⟩
abbrev S4096 : Shape := ⟨1, ![4096]⟩
abbrev S4096x1 : Shape := ⟨2, ![4096, 1]⟩
abbrev S4096x64 : Shape := ⟨2, ![4096, 64]⟩
abbrev S64 : Shape := ⟨1, ![64]⟩
abbrev S64x4096 : Shape := ⟨2, ![64, 4096]⟩
abbrev S_ : Shape := ⟨0, ![]⟩
abbrev S4096x512x1 : Shape := ⟨3, ![4096, 512, 1]⟩
abbrev S4096x512x8 : Shape := ⟨3, ![4096, 512, 8]⟩
abbrev S1x64 : Shape := ⟨2, ![1, 64]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8192x8, .f32⟩
  | .hbm, ⟨2, _⟩ => ⟨S4096x512, .i32⟩
  | .hbm, ⟨3, _⟩ => ⟨S4096, .i32⟩
  | .hbm, ⟨4, _⟩ => ⟨S4096x1, .f32⟩
  | .hbm, ⟨5, _⟩ => ⟨S4096x1, .f32⟩
  | .hbm, ⟨6, _⟩ => ⟨S4096x64, .f32⟩
  | .hbm, ⟨7, _⟩ => ⟨S64, .f32⟩
  | .hbm, ⟨8, _⟩ => ⟨S64x4096, .f32⟩
  | .hbm, ⟨9, _⟩ => ⟨S4096, .f32⟩
  | .hbm, ⟨10, _⟩ => ⟨S_, .i32⟩
  | .hbm, ⟨11, _⟩ => ⟨S4096x512, .i32⟩
  | .hbm, ⟨12, _⟩ => ⟨S4096x512, .i1⟩
  | .hbm, ⟨13, _⟩ => ⟨S_, .i32⟩
  | .hbm, ⟨14, _⟩ => ⟨S4096x512, .i32⟩
  | .hbm, ⟨15, _⟩ => ⟨S4096x512, .i32⟩
  | .hbm, ⟨16, _⟩ => ⟨S4096x512, .i32⟩
  | .hbm, ⟨17, _⟩ => ⟨S4096x512x1, .i32⟩
  | .hbm, ⟨18, _⟩ => ⟨S4096x512x8, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x4096, .f32⟩
  | .hbm, ⟨33, _⟩ => ⟨S1x64, .f32⟩
  | .hbm, ⟨34, _⟩ => ⟨S4096x64, .f32⟩
  | .hbm, ⟨35, _⟩ => ⟨S4096x64, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S1x4096, .f32⟩
  | .hbm, ⟨41, _⟩ => ⟨S4096x4096, .f32⟩
  | .hbm, ⟨42, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  shapeCasts_S4096x512x8_S4096x4096 : S4096x512x8.ShapeCasts S4096x4096
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S8192x8_S4096x512x1_S4096x512x8_2_0_n_n_0_2_18_wf : GatherDims.WF S8192x8 S4096x512x1 S4096x512x8 [2] [0] [] [0] [] 2 ![1, 8]
  gather_S4096x4096_S4096x1_S4096x4096_0_1_n_n_1_1_40961_wf : GatherDims.WF S4096x4096 S4096x1 S4096x4096 [0] [1] [] [1] [] 1 ![4096, 1]
  dot_S4096x64_S64x4096_S4096x4096_1_0_0_1_n_n_wf : DotDims.WF S4096x64 S64x4096 S4096x4096 [1] [0] [0] [1] [] []
  dot_S4096x4096_S4096x4096_S4096x4096_1_0_0_1_n_n_wf : DotDims.WF S4096x4096 S4096x4096 S4096x4096 [1] [0] [0] [1] [] []

variable [Facts₀]

def gather_S8192x8_S4096x512x1_S4096x512x8_2_0_n_n_0_2_18 : GatherDims S8192x8 S4096x512x1 S4096x512x8 where
  offsetDims := [2]
  collapsedSliceDims := [0]
  operandBatchingDims := []
  startIndicesBatchingDims := []
  startIndexMap := [0]
  indexVectorDim := 2
  sliceSizes := ![1, 8]
  wf := gather_S8192x8_S4096x512x1_S4096x512x8_2_0_n_n_0_2_18_wf
def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one grid step leaves behind, as plain values of the blocks it was given.

  The body keeps a running [1024, 1024] total in a scratch buffer. At a step with k = 0 it first stores zeros there;
  at every step it adds to the total the product of the step's activation block with the transpose of its weight
  block; at a step with k = 3 it also writes total + bias row into the output block. Below, each of these is read
  off the step's stores: every store covers its whole buffer, so what a buffer holds afterwards is the last store's
  value, and a load that follows a store in the same step reads that store's value.
-/
import proofs.«128686_j11123965297141_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The whole-buffer rectangles start at the origin. -/
theorem origin : (![0, 0] : Fin 2 → Nat) = fun _ => 0 := funext fun a => by fin_cases a <;> rfl

/-- A step with 0 < k < 3 leaves in the scratch the total it found plus this step's block product. -/
theorem scratch_mid (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg7.read_unread,
    View.ld_unit_zero (S := S1024x1024) origin]

/-- A step with k = 0 zeroes the scratch and then adds its block product: the total it leaves is zero plus that
    product, whatever the scratch held before. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 x0 x1 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread,
    View.ld_unit_zero (S := S1024x1024) origin]

/-- A step with k = 3 leaves in the scratch, like the middle steps, the total it found plus its block product; -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread,
    View.ld_unit_zero (S := S1024x1024) origin]

/-- and in the output block that new total plus the bias row, broadcast down the rows. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread,
    View.ld_unit_zero (S := S1024x1024) origin, View.ld_unit_zero (S := S1x1024) origin,
    View.readCov_unit_zero (S := S1024x1024) _ origin]

end Cert.KernelIdeal.Pieces

end
-- ==== Proof.Entry.lean ====
/-
  One grid step's arithmetic, entry by entry, over the extended reals.

  The step's block product contracts the LAST axis of both blocks (the weight block is used transposed): its entry
  (p, q) is Σ_k a[p, k] · b[q, k] over the block's 1024 columns. The reset value is zero at every entry, the
  accumulation adds the product entry to the running total's entry, and the epilogue adds bias[0, q] to entry (p, q).
-/
import proofs.«128686_j11123965297141_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.Entry

open Cert.KernelIdeal Cert.KernelIdeal.Gen

/-- Left operand of the block product, row axis: the output's row. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- Left operand, column axis: the contraction position. -/
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- Right operand, row axis: the output's COLUMN (the right block enters transposed). -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- Right operand, column axis: the contraction position. -/
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The reset value is zero everywhere. -/
theorem reset_apply (i : S1024x1024.Idx) : k0_pay1 (F := Ideal) i = 0 := by
  unfold k0_pay1
  simp only [shapeCast_self]
  show Ideal.ofBits .f32 0x00000000#32 = 0
  exact Ideal.ofBits_zero_f32

/-- The accumulation at entry (p, q): the total's entry plus the inner product of row p of the left block with
    row q of the right block. -/
theorem accumulate_apply (a b : Vec Ideal S1024x1024 .bf16) (acc : Vec Ideal S1024x1024 .f32) (p q : Fin 1024) :
    k0_pay2 (F := Ideal) a b acc (ix2 p q) = acc (ix2 p q) + ∑ k : Fin 1024, a (ix2 p k) * b (ix2 q k) := by
  unfold k0_pay2
  simp only [shapeCast_self, matmul]
  rw [addf_apply, Ideal.matmul_constant_zero_apply,
    ← Equiv.sum_comp (ValueIdx.contrEquiv1 dot_S1024x1024_S1024x1024_S1024x1024_1_1_0_0_n_n 1024 rfl rfl).symm]
  refine congrArg (acc (ix2 p q) + ·) (Finset.sum_congr rfl fun k _ => ?_)
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_row _ _
    | ⟨1, _⟩ => exact (lhs_col _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_row _ _
    | ⟨1, _⟩ => exact (rhs_col _ _).trans hk)
  rw [el, er]

/-- The epilogue at entry (p, q): the total's entry plus the bias row's entry q. -/
theorem epilogue_apply (acc : Vec Ideal S1024x1024 .f32) (bias : Vec Ideal S1x1024 .f32) (p q : Fin 1024) :
    k0_pay3 (F := Ideal) acc bias (ix2 p q) = acc (ix2 p q) + bias (ix2 (0 : Fin 1) q) := by
  unfold k0_pay3
  simp only [shapeCast_self]
  rw [addf_apply]
  refine congrArg (acc (ix2 p q) + ·) ?_
  exact broadcastTo_apply bias broadcasts_S1x1024_S1024x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

end Cert.KernelIdeal.Entry

end
-- ==== Proof.Blocks.lean ====
/-
  Where each grid step's blocks sit in the arrays the kernel region is entered with.

  The grid is 4 × 4 × 4, visited in row-major order: step t has output-row block t / 16, output-column block
  (t / 4) % 4 and contraction block t % 4. At step t the activation block is rows 1024·(t / 16) …, columns
  1024·(t % 4) … of the activation array; the weight block is rows 1024·((t / 4) % 4) …, columns 1024·(t % 4) … of
  the weight array; the bias block is columns 1024·((t / 4) % 4) … of the one-row bias array. The three arrays are
  what the host operations before the region leave: the activations and the weights each passed through a change of
  float format, and the bias vector laid out as one row.
-/
import proofs.«128686_j11123965297141_1_alg».proof.Proof.Gen.KernelIdeal.Value
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.StableHlo

namespace Cert.KernelIdeal.Blocks

open Cert.KernelIdeal Cert.KernelIdeal.Gen

variable {F : FTy → Type} [FloatOps F]
variable (m : (ℓ : Loc nD τ sig) → Buf (Elt F) ℓ)

/-- The activation array, the weight array and the bias row as the region finds them, and each step's block of them. -/
abbrev xarr (c : Dev nD) : Vec F S4096x4096 .bf16 := V m c main_v24
abbrev warr (c : Dev nD) : Vec F S4096x4096 .bf16 := V m c main_v25
abbrev barr (c : Dev nD) : Vec F S1x4096 .f32 := V m c main_v26
/-- The weights before the change of format. -/
abbrev wsrc (c : Dev nD) : Vec F S4096x4096 .f32 := V m c main_v23
abbrev xblk (c : Dev nD) (t : Fin cfg0.N) : Vec F S1024x1024 .bf16 := iblk m c 0 t
abbrev wblk (c : Dev nD) (t : Fin cfg0.N) : Vec F S1024x1024 .bf16 := iblk m c 1 t
abbrev bblk (c : Dev nD) (t : Fin cfg0.N) : Vec F S1x1024 .f32 := iblk m c 2 t

/-- The block coordinates of every window at step t, decided over the 64 steps. -/
theorem x_index : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem w_index : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem b_index : ∀ t : Fin cfg0.N, win0_2.index t (0 : Fin 2) = 0 ∧ win0_2.index t (1 : Fin 2) = t.val / 4 % 4 :=
  (by decide +kernel : ∀ t : Fin grid0.N, win0_2.index t (0 : Fin 2) = 0 ∧ win0_2.index t (1 : Fin 2) = t.val / 4 % 4)
theorem o_index : ∀ t : Fin cfg0.N, win0_3.index t (0 : Fin 2) = t.val / 16 ∧ win0_3.index t (1 : Fin 2) = t.val / 4 % 4 :=
  (by decide +kernel : ∀ t : Fin grid0.N, win0_3.index t (0 : Fin 2) = t.val / 16 ∧ win0_3.index t (1 : Fin 2) = t.val / 4 % 4)

/-- The activation block's entry (p, k) is the array's entry in row 1024·(t / 16) + p, column 1024·(t % 4) + k. -/
theorem xblk_apply (c : Dev nD) (t : Fin cfg0.N) (p k : Fin 1024) (i : S4096x4096.Idx)
    (h0 : (i 0).val = 1024 * (t.val / 16) + p.val) (h1 : (i 1).val = 1024 * (t.val % 4) + k.val) :
    xblk m c t (ix2 p k) = xarr m c i := by
  show iblk m c 0 t (ix2 p k) = V m c main_v24 i
  unfold iblk
  rw [View.read_apply]
  show V m c main_v24 _ = V m c main_v24 i
  congr 1
  funext a
  apply Fin.ext
  match a with
  | ⟨0, _⟩ => show win0_0.index t 0 * 1024 + 1 * p.val = (i 0).val; rw [(x_index t).1, h0]; omega
  | ⟨1, _⟩ => show win0_0.index t 1 * 1024 + 1 * k.val = (i 1).val; rw [(x_index t).2, h1]; omega

/-- The weight block's entry (q, k) is the array's entry in row 1024·((t / 4) % 4) + q, column 1024·(t % 4) + k. -/
theorem wblk_apply (c : Dev nD) (t : Fin cfg0.N) (q k : Fin 1024) (i : S4096x4096.Idx)
    (h0 : (i 0).val = 1024 * (t.val / 4 % 4) + q.val) (h1 : (i 1).val = 1024 * (t.val % 4) + k.val) :
    wblk m c t (ix2 q k) = warr m c i := by
  show iblk m c 1 t (ix2 q k) = V m c main_v25 i
  unfold iblk
  rw [View.read_apply]
  show V m c main_v25 _ = V m c main_v25 i
  congr 1
  funext a
  apply Fin.ext
  match a with
  | ⟨0, _⟩ => show win0_1.index t 0 * 1024 + 1 * q.val = (i 0).val; rw [(w_index t).1, h0]; omega
  | ⟨1, _⟩ => show win0_1.index t 1 * 1024 + 1 * k.val = (i 1).val; rw [(w_index t).2, h1]; omega

/-- The bias block's entry (0, q) is the bias row's entry 1024·((t / 4) % 4) + q. -/
theorem bblk_apply (c : Dev nD) (t : Fin cfg0.N) (q : Fin 1024) (i : S1x4096.Idx)
    (h1 : (i 1).val = 1024 * (t.val / 4 % 4) + q.val) :
    bblk m c t (ix2 (0 : Fin 1) q) = barr m c i := by
  show iblk m c 2 t (ix2 (0 : Fin 1) q) = V m c main_v26 i
  unfold iblk
  rw [View.read_apply]
  show V m c main_v26 _ = V m c main_v26 i
  congr 1
  funext a
  apply Fin.ext
  match a with
  | ⟨0, _⟩ => show win0_2.index t 0 * 1 + 1 * 0 = (i 0).val; rw [(b_index t).1]; have hi : (i 0).val < 1 := (i 0).isLt; omega
  | ⟨1, _⟩ => show win0_2.index t 1 * 1024 + 1 * q.val = (i 1).val; rw [(b_index t).2, h1]; omega

/-- What the host operations before the region leave in the three arrays the kernel stages. -/
theorem xarr_eq (c : Dev nD) : xarr m c = truncf .bf16 (m ((c : Thread nD τ).loc main_arg0)) bitsLt_bf16_f32 := by
  show V m c main_v24 = _
  dsimp only [V, hostOps0]; after_results_simp <;> rfl

theorem barr_eq (c : Dev nD) : barr m c = shapeCast S1x4096 (m ((c : Thread nD τ).loc main_arg9)) shapeCasts_S4096_S1x4096 := by
  show V m c main_v26 = _
  dsimp only [V, hostOps0]; after_results_simp <;> rfl

theorem warr_eq (c : Dev nD) : warr m c = truncf .bf16 (wsrc m c) bitsLt_bf16_f32 := by
  show V m c main_v25 = truncf .bf16 (V m c main_v23) bitsLt_bf16_f32
  dsimp only [V, hostOps0]; after_results_simp <;> rfl

end Cert.KernelIdeal.Blocks

end
-- ==== Proof.Total.lean ====
/-
  The running total after every grid step.

  Steps 4·r, 4·r + 1, 4·r + 2, 4·r + 3 form one run: they share an output block and walk the four contraction
  blocks. The first step of a run leaves zero plus its block product in the scratch; each later step adds its own
  block product to what it found. So after step t the scratch holds zero plus the block products of the steps of
  t's run up to t, entry by entry.
-/
import proofs.«128686_j11123965297141_1_alg».proof.Proof.Pieces
import proofs.«128686_j11123965297141_1_alg».proof.Proof.Entry
import proofs.«128686_j11123965297141_1_alg».proof.Proof.Blocks
import Idealize.ShloMosaic.Lib.Pipeline.Value

noncomputable section

open scoped BigOperators
open Idealize.ShloMosaic Idealize.ShloMosaic.TcCoe Idealize.SL.Sem Idealize.ShloMosaic.ValueIdx

namespace Cert.KernelIdeal.Total

open Cert.KernelIdeal Cert.KernelIdeal.Gen Cert.KernelIdeal.Blocks

variable (m : (ℓ : Loc nD τ sig) → Buf (Elt Ideal) ℓ)

/-- Step n's block product at an entry: row (i 0) of its activation block against row (i 1) of its weight block
    (zero for an n past the grid: never consulted). -/
def blockDot (c : Dev nD) (n : ℕ) (i : S1024x1024.Idx) : EReal :=
  if h : n < cfg0.N then ∑ k : Fin 1024, ((xblk m c ⟨n, h⟩ (ix2 (i 0) k) : EReal) * (wblk m c ⟨n, h⟩ (ix2 (i 1) k) : EReal)) else 0

/-- One step of the scratch: at the first step of a run zero, at any other step what the step found, plus the step's
    block product. -/
theorem step_apply (c : Dev nD) (n : ℕ) (hb : n < cfg0.N) (acc : Vec Ideal S1024x1024 .f32) (p q : Fin 1024) :
    Value.scAt0_0 m c n hb acc (ix2 p q)
      = (if n % 4 = 0 then (0 : EReal) else acc (ix2 p q)) + blockDot m c n (ix2 p q) := by
  have hN : n < 64 := lt_of_lt_of_eq hb N_0
  have hd : blockDot m c n (ix2 p q) = ∑ k : Fin 1024, ((xblk m c ⟨n, hb⟩ (ix2 p k) : EReal) * (wblk m c ⟨n, hb⟩ (ix2 q k) : EReal)) := by
    unfold blockDot; rw [dif_pos hb]
  rw [hd]
  unfold Value.scAt0_0
  by_cases h0 : n % 4 = 0
  · have h1 : ¬n % 4 = 3 := by omega
    rw [dif_pos h0, dif_neg h1, if_pos h0]
    refine (congrFun (Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 p q)).trans ?_
    refine (Entry.accumulate_apply (xblk m c ⟨n, hb⟩) (wblk m c ⟨n, hb⟩) (k0_pay1 (F := Ideal)) p q).trans ?_
    rw [Entry.reset_apply]
  · by_cases h1 : n % 4 = 3
    · rw [dif_neg h0, dif_pos h1, if_neg h0]
      refine (congrFun (Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 p q)).trans ?_
      exact Entry.accumulate_apply (xblk m c ⟨n, hb⟩) (wblk m c ⟨n, hb⟩) acc p q
    · rw [dif_neg h0, dif_neg h1, if_neg h0]
      refine (congrFun (Pieces.scratch_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 p q)).trans ?_
      exact Entry.accumulate_apply (xblk m c ⟨n, hb⟩) (wblk m c ⟨n, hb⟩) acc p q

/-- After step t the scratch holds zero plus the block products of the steps of t's run up to t. -/
theorem total_after (c : Dev nD) (t : Fin cfg0.N) (i : S1024x1024.Idx) :
    (outsAt0 m c t.val t.isLt).2 i
      = 0 + ∑ s ∈ Finset.range (t.val % 4 + 1), blockDot m c (4 * (t.val / 4) + s) i := by
  have hN : cfg0.N = 64 := N_0
  rw [Value.soutsAt0_0_eq m c t]
  refine Pipeline.accAt_add_apply (β := EReal) _ _ (fun _ => 0) (blockDot m c) (4 * (t.val / 4)) 3 ?_ ?_ (t.val % 4) (by omega) _ i
  · intro h j
    obtain ⟨p, q, rfl⟩ : ∃ (p q : Fin 1024), j = ix2 p q := ⟨j 0, j 1, eq_ix2 j⟩
    rw [step_apply m c _ h _ p q, if_pos (by omega)]
  · intro n h acc j hlt hle
    obtain ⟨p, q, rfl⟩ : ∃ (p q : Fin 1024), j = ix2 p q := ⟨j 0, j 1, eq_ix2 j⟩
    rw [step_apply m c n h acc p q, if_neg (by omega)]

end Cert.KernelIdeal.Total

end
-- ==== Proof.Dense.lean ====
/-
  The mathematics of the layer, with no program in sight.

  A dense layer sends an activation matrix `x` [4096, 4096], a weight matrix `w` [4096, 4096] (one ROW per output
  feature) and a bias row `b` [4096] to `out[i, j] = (Σ_k x[i, k] · w[j, k]) + b[j]`, over the extended reals.
  The sum over the 4096 columns may be taken in four consecutive runs of 1024 columns, each run's partial inner
  product added to a running total that starts at zero: addition on the extended reals is commutative and
  associative and zero is neutral, so regrouping a finite sum never changes it (no finiteness is needed: no
  product is ever distributed over a sum).
-/
import Idealize.ShloMosaic.Lib.ValueIdx
import Idealize.ShloMosaic.PureOps.Ideal.Laws
import Mathlib.Algebra.BigOperators.Intervals

noncomputable section

open scoped BigOperators

namespace Cert.Dense

open Idealize.ShloMosaic Idealize.ShloMosaic.ValueIdx

/-- A 4096 × 4096 matrix of extended reals. -/
abbrev Mat : Type := (⟨2, ![4096, 4096]⟩ : Shape).Idx → EReal
/-- A row of 4096 extended reals. -/
abbrev Row : Type := (⟨1, ![4096]⟩ : Shape).Idx → EReal

/-- The layer: entry (i, j) is the inner product of row i of `x` with row j of `w`, plus `b[j]`. -/
def dense (x w : Mat) (b : Row) : Mat := fun i =>
  (∑ k : Fin 4096, x (ix2 (i 0) k) * w (ix2 (i 1) k)) + b (ix1 (i 1))

/-- A matrix read at natural-number coordinates (zero outside: never consulted). -/
def at2 (x : Mat) (r c : ℕ) : EReal :=
  if h : r < 4096 ∧ c < 4096 then x (ix2 ⟨r, h.1⟩ ⟨c, h.2⟩) else 0

theorem at2_val (x : Mat) (r c : Fin 4096) : at2 x r.val c.val = x (ix2 r c) := by
  unfold at2; rw [dif_pos ⟨r.isLt, c.isLt⟩]

/-- The partial inner product of row `i` of `x` and row `j` of `w` over the `s`-th run of 1024 columns. -/
def partialDot (x w : Mat) (i j s : ℕ) : EReal :=
  ∑ k : Fin 1024, at2 x i (1024 * s + k.val) * at2 w j (1024 * s + k.val)

/-- A sum over 4096 consecutive naturals is the sum of its four runs of 1024. -/
theorem sum_four_runs {β : Type*} [AddCommMonoid β] (f : ℕ → β) :
    ∑ k ∈ Finset.range 4096, f k = ∑ s ∈ Finset.range 4, ∑ k ∈ Finset.range 1024, f (1024 * s + k) := by
  rw [show (4096 : ℕ) = 1024 + 1024 + 1024 + 1024 from rfl, Finset.sum_range_add, Finset.sum_range_add,
    Finset.sum_range_add]
  simp only [Finset.sum_range_succ, Finset.sum_range_zero, zero_add, Nat.mul_zero, Nat.mul_one]

/-- The layer's entry, with the inner product taken run by run into a total that starts at zero. -/
theorem dense_by_runs (x w : Mat) (b : Row) (p q : Fin 4096) :
    dense x w b (ix2 p q) = (0 + ∑ s ∈ Finset.range 4, partialDot x w p.val q.val s) + b (ix1 q) := by
  show (∑ k : Fin 4096, x (ix2 p k) * w (ix2 q k)) + b (ix1 q) = _
  rw [zero_add]
  congr 1
  have e1 : ∑ k : Fin 4096, x (ix2 p k) * w (ix2 q k)
      = ∑ k : Fin 4096, (fun n => at2 x p.val n * at2 w q.val n) k.val :=
    Finset.sum_congr rfl fun k _ => by
      show _ = at2 x p.val k.val * at2 w q.val k.val
      rw [at2_val, at2_val]
  rw [e1, ← Finset.sum_range (fun n => at2 x p.val n * at2 w q.val n), sum_four_runs]
  refine Finset.sum_congr rfl fun s _ => ?_
  exact Finset.sum_range (fun k => at2 x p.val (1024 * s + k) * at2 w q.val (1024 * s + k))

end Cert.Dense

end
-- ==== Proof.Output.lean ====
/-
  The output block a run's last step writes, and with it the whole result array.

  The last step of a run (k = 3) writes its new total plus the bias row into output block (t / 16, (t / 4) % 4).
  Its new total is zero plus the four block products of the run, and each of those is the partial inner product of
  an activation row with a weight row over one run of 1024 columns; the four runs of columns together are the whole
  inner product. The sixteen last steps write the sixteen output blocks, which tile the array: so the result array is
  the dense layer of the activations, of the weights as the host operations built them, and of the bias vector.
-/
import proofs.«128686_j11123965297141_1_alg».proof.Proof.Total
import proofs.«128686_j11123965297141_1_alg».proof.Proof.Dense
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.KernelIdeal.Blocks

variable (m : (ℓ : Loc nD τ sig) → Buf (Elt Ideal) ℓ) (ρ : Dev nD → PrngReg)

/-- The layer's result on a core: activations × (weights)ᵀ + bias. -/
abbrev result (c : Dev nD) : Buf (Elt Ideal) ((c : Thread nD τ).loc main_v27) :=
  Dense.dense (m ((c : Thread nD τ).loc main_arg0)) (wsrc m c) (m ((c : Thread nD τ).loc main_arg9))

/-- Over the extended reals a change of float format changes nothing: the staged activations are the activations, -/
theorem xarr_apply (c : Dev nD) (i : S4096x4096.Idx) : (xarr m c i : EReal) = (m ((c : Thread nD τ).loc main_arg0)) i := by
  rw [xarr_eq]; rfl
/-- the staged weights are the weights, -/
theorem warr_apply (c : Dev nD) (i : S4096x4096.Idx) : (warr m c i : EReal) = wsrc m c i := by
  rw [warr_eq]; rfl
/-- and the one-row bias array holds the bias vector. -/
theorem barr_apply (c : Dev nD) (j : Fin 4096) : (barr m c (ix2 (0 : Fin 1) j) : EReal) = (m ((c : Thread nD τ).loc main_arg9)) (ix1 j) := by
  rw [barr_eq]
  exact shapeCast_a_1a_apply (m ((c : Thread nD τ).loc main_arg9)) shapeCasts_S4096_S1x4096 (0 : Fin 1) j

/-- The block product of the s-th step of t's run, at entry (p, q) of the block, is the partial inner product of
    activation row i₀ with weight row i₁ over the s-th run of 1024 columns, where (i₀, i₁) is the array position of
    entry (p, q) of t's output block. -/
theorem blockDot_run (c : Dev nD) (t : Fin cfg0.N) (s : ℕ) (hs : s < 4) (p q : Fin 1024) (i0 i1 : Fin 4096)
    (h0 : i0.val = 1024 * (t.val / 16) + p.val) (h1 : i1.val = 1024 * (t.val / 4 % 4) + q.val) :
    Total.blockDot m c (4 * (t.val / 4) + s) (ix2 p q)
      = Dense.partialDot (m ((c : Thread nD τ).loc main_arg0)) (wsrc m c) i0.val i1.val s := by
  have hN : cfg0.N = 64 := N_0
  have ht := t.isLt
  have hn : 4 * (t.val / 4) + s < cfg0.N := by omega
  unfold Total.blockDot Dense.partialDot
  rw [dif_pos hn]
  refine Finset.sum_congr rfl fun k _ => ?_
  have hk := k.isLt
  have hc : 1024 * s + k.val < 4096 := by omega
  have ex : (xblk m c ⟨4 * (t.val / 4) + s, hn⟩ (ix2 p k) : EReal) = Dense.at2 (m ((c : Thread nD τ).loc main_arg0)) i0.val (1024 * s + k.val) := by
    rw [xblk_apply m c ⟨4 * (t.val / 4) + s, hn⟩ p k (ix2 i0 ⟨1024 * s + k.val, hc⟩)
      (by show i0.val = 1024 * ((4 * (t.val / 4) + s) / 16) + p.val; omega)
      (by show 1024 * s + k.val = 1024 * ((4 * (t.val / 4) + s) % 4) + k.val; omega), xarr_apply]
    unfold Dense.at2
    rw [dif_pos ⟨i0.isLt, hc⟩]
  have ew : (wblk m c ⟨4 * (t.val / 4) + s, hn⟩ (ix2 q k) : EReal) = Dense.at2 (wsrc m c) i1.val (1024 * s + k.val) := by
    rw [wblk_apply m c ⟨4 * (t.val / 4) + s, hn⟩ q k (ix2 i1 ⟨1024 * s + k.val, hc⟩)
      (by show i1.val = 1024 * ((4 * (t.val / 4) + s) / 4 % 4) + q.val; omega)
      (by show 1024 * s + k.val = 1024 * ((4 * (t.val / 4) + s) % 4) + k.val; omega), warr_apply]
    unfold Dense.at2
    rw [dif_pos ⟨i1.isLt, hc⟩]
  show (xblk m c ⟨4 * (t.val / 4) + s, hn⟩ (ix2 p k) : EReal) * (wblk m c ⟨4 * (t.val / 4) + s, hn⟩ (ix2 q k) : EReal) = _
  rw [ex, ew]

/-- After the last step of a run the scratch holds what that step's accumulation leaves. -/
theorem total_last (c : Dev nD) (t : Fin cfg0.N) (h0 : ¬t.val % 4 = 0) (h1 : t.val % 4 = 3) :
    (outsAt0 m c t.val t.isLt).2
      = k0_pay2 (F := Ideal) (xblk m c t) (wblk m c t) (outsAt0 m c (t.val - 1) (Nat.lt_of_le_of_lt (Nat.sub_le _ _) t.isLt)).2 := by
  rw [outsAt0_C m c t h0 h1]
  dsimp only
  exact Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- Entry y of the block the last step of a run writes is the layer's result at y's place in the array. -/
theorem out_entry (c : Dev nD) (t : Fin cfg0.N) (h0 : ¬t.val % 4 = 0) (h1 : t.val % 4 = 3) (y : S1024x1024.Idx) (i : S4096x4096.Idx)
    (hi0 : (i 0).val = 1024 * (t.val / 16) + (y 0).val) (hi1 : (i 1).val = 1024 * (t.val / 4 % 4) + (y 1).val) :
    out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 y
      = result m c i := by
  obtain ⟨p, q, rfl⟩ : ∃ (p q : Fin 1024), y = ix2 p q := ⟨y 0, y 1, eq_ix2 y⟩
  obtain ⟨i0, i1, rfl⟩ : ∃ (i0 i1 : Fin 4096), i = ix2 i0 i1 := ⟨i 0, i 1, eq_ix2 i⟩
  have hi0' : i0.val = 1024 * (t.val / 16) + p.val := hi0
  have hi1' : i1.val = 1024 * (t.val / 4 % 4) + q.val := hi1
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
  refine (Entry.epilogue_apply (k0_pay2 (F := Ideal) (xblk m c t) (wblk m c t) (outsAt0 m c (t.val - 1) (Nat.lt_of_le_of_lt (Nat.sub_le _ _) t.isLt)).2) (bblk m c t) p q).trans ?_
  rw [← total_last m c t h0 h1, Total.total_after m c t (ix2 p q), h1,
    bblk_apply m c t q (ix2 (0 : Fin 1) i1) hi1', barr_apply]
  show _ = Dense.dense _ _ _ (ix2 i0 i1)
  rw [Dense.dense_by_runs]
  refine congrArg (· + (m ((c : Thread nD τ).loc main_arg9)) (ix1 i1)) (congrArg ((0 : EReal) + ·) (Finset.sum_congr rfl fun s hs => ?_))
  exact blockDot_run m c t s (Finset.mem_range.mp hs) p q i0 i1 hi0' hi1'

end Cert.KernelIdeal.Output

end
-- ==== Proof.Final.lean ====
/-
  The result array after the kernel region: the dense layer, everywhere.

  Output block (a, b) is written back once, by the last step of its run, step 16·a + 4·b + 3; the sixteen blocks
  tile the 4096 × 4096 array, so every position of the array is written by exactly the step of its block, and what
  that step writes there is the layer's result at that position.
-/
import proofs.«128686_j11123965297141_1_alg».proof.Proof.Output

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Output

variable (m : (ℓ : Loc nD τ sig) → Buf (Elt Ideal) ℓ) (ρ : Dev nD → PrngReg)

/-- What a writing step writes back is its block of the layer's result. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have h0 : ¬t.val % 4 = 0 := by omega
  rw [Value.flushed3_C m c t h0 h1]
  funext j
  show out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 j
    = result m c (((cfg0.win 3).blk t).view.emb j)
  exact out_entry m c t h0 h1 j (((cfg0.win 3).blk t).view.emb j)
    (by show win0_3.index t 0 * 1024 + 1 * (j 0).val = 1024 * (t.val / 16) + (j 0).val; rw [(o_index t).1]; omega)
    (by show win0_3.index t 1 * 1024 + 1 * (j 1).val = 1024 * (t.val / 4 % 4) + (j 1).val; rw [(o_index t).2]; omega)

/-- A position lies in step t's output block iff each coordinate lies in the block's range. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v27).slice (win0_3.rect t)).set ↔ _
  rw [View.set_slice_whole, Rect.mem_set_unit]
  exact Iff.rfl

/-- Every position is in the block of a writing step: position (r, s) in that of step 16·(r / 1024) + 4·(s / 1024) + 3. -/
theorem cover (i : S4096x4096.Idx) : ∃ t : Fin cfg0.N, (cfg0.win 3).flush t = true ∧ i ∈ ((cfg0.win 3).blk t).view.set := by
  have hN : cfg0.N = 64 := N_0
  have hi0 : (i 0).val < 4096 := (i 0).isLt
  have hi1 : (i 1).val < 4096 := (i 1).isLt
  refine ⟨⟨16 * ((i 0).val / 1024) + 4 * ((i 1).val / 1024) + 3, by omega⟩, (flush0_3 _).mpr (by show (16 * ((i 0).val / 1024) + 4 * ((i 1).val / 1024) + 3) % 4 = 3; omega), ?_⟩
  rw [mem_blk]
  intro a
  match a with
  | ⟨0, _⟩ =>
    show win0_3.index _ (0 : Fin 2) * 1024 ≤ (i 0).val ∧ (i 0).val < win0_3.index _ (0 : Fin 2) * 1024 + 1024
    rw [(o_index _).1]
    show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win0_3.index _ (1 : Fin 2) * 1024 ≤ (i 1).val ∧ (i 1).val < win0_3.index _ (1 : Fin 2) * 1024 + 1024
    rw [(o_index _).2]
    show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- The result array after the region. -/
theorem final (c : Dev nD) : (dats m 0 c).arrAt 3 cfg0.N = result m c :=
  (dats m 0 c).arrAt_eq_of_cover 3 (result m c) (flushed_eq m c) cover

/-- Every fair execution of the kernel program ends with the result array at the dense layer and the arguments as given. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Final

end
-- ==== Proof.RefDense.lean ====
/-
  The reference program computes the dense layer.

  Its last operations transpose the weight matrix, contract the activations' columns against the transposed
  matrix's rows, and add the bias vector broadcast down the rows: entry (p, q) is Σ_k x[p, k] · w[q, k] + b[q], the
  dense layer of the activations, of the weights its earlier operations built, and of the bias vector.
-/
import proofs.«128686_j11123965297141_1_alg».proof.Proof.Gen.ReferenceIdeal.Read
import proofs.«128686_j11123965297141_1_alg».proof.Proof.Dense

noncomputable section

open scoped BigOperators
open Idealize.ShloMosaic Idealize.ShloMosaic.TcCoe Idealize.SL.Sem Idealize.ShloMosaic.ValueIdx

namespace Cert.ReferenceIdeal.RefDense

open Cert.ReferenceIdeal Cert.ReferenceIdeal.Gen Cert.ReferenceIdeal.Read

theorem result_is_dense (x0 : (⟨S4096x4096, .f32⟩ : BufTy).Contents (Elt Ideal)) (x1 : (⟨S8192x8, .f32⟩ : BufTy).Contents (Elt Ideal)) (x2 : (⟨S4096x512, .i32⟩ : BufTy).Contents (Elt Ideal)) (x3 : (⟨S4096, .i32⟩ : BufTy).Contents (Elt Ideal)) (x4 : (⟨S4096x1, .f32⟩ : BufTy).Contents (Elt Ideal)) (x5 : (⟨S4096x1, .f32⟩ : BufTy).Contents (Elt Ideal)) (x6 : (⟨S4096x64, .f32⟩ : BufTy).Contents (Elt Ideal)) (x7 : (⟨S64, .f32⟩ : BufTy).Contents (Elt Ideal)) (x8 : (⟨S64x4096, .f32⟩ : BufTy).Contents (Elt Ideal)) (x9 : (⟨S4096, .f32⟩ : BufTy).Contents (Elt Ideal)) :
    val_main_v28 (F := Ideal) x0 x1 x2 x3 x4 x5 x6 x7 x8 x9
      = Dense.dense x0 (val_main_v23 (F := Ideal) x1 x2 x3 x4 x5 x6 x7 x8) x9 := by
  funext i
  obtain ⟨p, q, rfl⟩ : ∃ (p q : Fin 4096), i = ix2 p q := ⟨i 0, i 1, eq_ix2 i⟩
  have e1 : ∀ k : Fin 4096, lidx_main_v25 (ix2 p q) k = ix2 p k := fun k => funext fun a => Fin.ext (by
    match a with | ⟨0, _⟩ => rfl | ⟨1, _⟩ => rfl)
  have e2 : ∀ k : Fin 4096, idx_main_v24 (ridx_main_v25 (ix2 p q) k) = ix2 q k := fun k => funext fun a => Fin.ext (by
    match a with | ⟨0, _⟩ => rfl | ⟨1, _⟩ => rfl)
  have e3 : idx_main_v26 (idx_main_v27 (ix2 p q)) = ix1 q := funext fun a => Fin.ext (by
    match a with | ⟨0, _⟩ => rfl)
  rw [val_main_v28_apply, val_main_v25_apply, val_main_v27_apply, val_main_v26_apply]
  simp only [val_main_v24_apply, e1, e2, e3]
  rfl

end Cert.ReferenceIdeal.RefDense

end
-- ==== Proof.Weights.lean ====
/-
  Both programs build the weight matrix by the same host operations.

  Codebook rows gathered by the (wrapped) code indices and laid out as matrix rows, a per-row scale and shift, a
  gather of columns by the (wrapped) permutation, plus the low-rank correction (U · diag S) · Vt: the kernel program
  runs these operations before its kernel region and the reference program runs the same ones, with the same
  literals, before its final contraction. So the weight array the kernel region is entered with is the reference's
  weight stage, as functions of the arguments.
-/
import proofs.«128686_j11123965297141_1_alg».proof.Proof.Blocks
import proofs.«128686_j11123965297141_1_alg».proof.Proof.Gen.ReferenceIdeal.Read
import Idealize.ShloMosaic.Lib.StableHlo.Run

noncomputable section

open Idealize.ShloMosaic Idealize.ShloMosaic.TcCoe Idealize.SL.Sem
open Idealize.ShloMosaic.StableHlo

namespace Cert.Weights

variable (m : (ℓ : Loc Cert.KernelIdeal.nD Cert.KernelIdeal.τ Cert.KernelIdeal.sig) → Buf (Elt Ideal) ℓ)

theorem kernel_weights_eq (c : Dev Cert.KernelIdeal.nD) :
    Cert.KernelIdeal.Blocks.wsrc m c
      = Cert.ReferenceIdeal.Read.val_main_v23 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  show Cert.KernelIdeal.Gen.V m c Cert.KernelIdeal.main_v23 = _
  dsimp only [Cert.KernelIdeal.Gen.V, Cert.KernelIdeal.Gen.hostOps0]
  after_results_simp <;> rfl

end Cert.Weights

end
-- ==== Proof.lean ====
/-
  A quantized linear layer: the weight matrix is rebuilt from a codebook (rows gathered by code index and laid out
  along each weight row, scaled and shifted per row, its columns permuted, a low-rank correction added), and the
  layer is `out = x · wᵀ + bias`.

  The kernel program and the reference program rebuild the weight matrix by the same host operations. They differ
  in the product: the reference transposes the weights and contracts all 4096 columns at once; the kernel walks a
  4 × 4 × 4 grid, and for each of the sixteen 1024 × 1024 output blocks keeps a running total that starts at zero,
  receives the partial products over four runs of 1024 columns, and is written out with the bias row added at the
  run's last step. Over the extended reals a change of float format is the identity and addition is commutative and
  associative, so the four partial sums added to zero are the whole inner product: both programs end with
  `Σ_k x[i, k] · w[j, k] + bias[j]` at every position (i, j). No finiteness is used: no product is distributed over
  a sum and nothing is cancelled.

  The three programs' runs terminate without fault and leave their arguments unchanged; the idealized kernel is the
  kernel's own text read over the extended reals (nothing was rewritten).
-/
import proofs.«128686_j11123965297141_1_alg».proof.Defs
import proofs.«128686_j11123965297141_1_alg».proof.Proof.Gen.Kernel
import proofs.«128686_j11123965297141_1_alg».proof.Proof.Gen.Kernel.Skeleton
import proofs.«128686_j11123965297141_1_alg».proof.Proof.Gen.Kernel.Launch
import proofs.«128686_j11123965297141_1_alg».proof.Proof.Gen.Kernel.Points
import proofs.«128686_j11123965297141_1_alg».proof.Proof.Gen.Kernel.Frame
import proofs.«128686_j11123965297141_1_alg».proof.Proof.Gen.KernelIdeal
import proofs.«128686_j11123965297141_1_alg».proof.Proof.Gen.KernelIdeal.Skeleton
import proofs.«128686_j11123965297141_1_alg».proof.Proof.Gen.KernelIdeal.Launch
import proofs.«128686_j11123965297141_1_alg».proof.Proof.Gen.KernelIdeal.Points
import proofs.«128686_j11123965297141_1_alg».proof.Proof.Gen.KernelIdeal.Frame
import proofs.«128686_j11123965297141_1_alg».proof.Proof.Gen.ReferenceIdeal
import proofs.«128686_j11123965297141_1_alg».proof.Proof.Gen.Pre_finite_inputs
import proofs.«128686_j11123965297141_1_alg».proof.Proof.Gen.KernelIdeal.Value
import proofs.«128686_j11123965297141_1_alg».proof.Proof.Gen.ReferenceIdeal.Run
import proofs.«128686_j11123965297141_1_alg».proof.Proof.Gen.ReferenceIdeal.Read
import proofs.«128686_j11123965297141_1_alg».proof.Proof.Final
import proofs.«128686_j11123965297141_1_alg».proof.Proof.RefDense
import proofs.«128686_j11123965297141_1_alg».proof.Proof.Weights
import Idealize.ShloMosaic.Adequacy
import Idealize.ShloMosaic.Init

noncomputable section

namespace Cert.Proof

open Idealize.ShloMosaic Idealize.SL.Sem

/-- The kernel program terminates without fault and leaves its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the dense layer of the activations, of the
    weights the shared host operations build, and of the bias vector. -/
theorem algebraic : Cert.algebraic_KernelIdeal_ReferenceIdeal := by
  intro m ρ m' ρ' _ hagree
  refine ⟨fun c => Cert.KernelIdeal.Output.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v28_eq, Cert.ReferenceIdeal.RefDense.result_is_dense,
    a0, a1, a2, a3, a4, a5, a6, a7, a8, a9]
  show Cert.Dense.dense _ _ _ = Cert.Dense.dense _ _ _
  rw [Cert.Weights.kernel_weights_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
